-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S128x2x128 : Shape := ⟨3, ![128, 2, 128]⟩
abbrev S128x2 : Shape := ⟨2, ![128, 2]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128x2x128 : S_.BroadcastsInDim S128x2x128 (![] : Fin 0 → Fin S128x2x128.rank)
  reducesTo_S128x2x128_S_d0_1_2 : S128x2x128.ReducesTo [0, 1, 2] S_
  bcast_S_S128x2 : S_.BroadcastsInDim S128x2 (![] : Fin 0 → Fin S128x2.rank)
  reducesTo_S128x2_S_d0_1 : S128x2.ReducesTo [0, 1] S_

variable [Facts]

def fn {F : FTy → Type} [FloatOps F] (main_arg0 : FVec F S131072x128 .f32) (main_arg1 : FVec F S128x2x128 .f32) (main_arg2 : FVec F S128x2 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S128x2x128 .f32 := Host.absf main_arg1
  let main_cst_0 : FVec F S_ .f32 := constant S_ .f32 0x7F800000#32
  let main_v5 : FVec F S128x2x128 .f32 := broadcastInDim S128x2x128 ![] bcast_S_S128x2x128 main_cst_0
  let main_v6 : IVec S128x2x128 1 := cmpf .olt main_v4 main_v5
  let main_c_1 : IVec S_ 1 := constantI S_ 1 1#1
  let main_v7 : IVec S_ 1 := (fun x v => Host.reduce IntOp.andi x v reducesTo_S128x2x128_S_d0_1_2 h_S_) main_v6 main_c_1
  let main_v8 : IVec S_ 1 := andi main_v3 main_v7
  let main_v9 : FVec F S128x2 .f32 := Host.absf main_arg2
  let main_cst_2 : FVec F S_ .f32 := constant S_ .f32 0x7F800000#32
  let main_v10 : FVec F S128x2 .f32 := broadcastInDim S128x2 ![] bcast_S_S128x2 main_cst_2
  let main_v11 : IVec S128x2 1 := cmpf .olt main_v9 main_v10
  let main_c_3 : IVec S_ 1 := constantI S_ 1 1#1
  let main_v12 : IVec S_ 1 := (fun x v => Host.reduce IntOp.andi x v reducesTo_S128x2_S_d0_1 h_S_) main_v11 main_c_3
  let main_v13 : IVec S_ 1 := andi main_v8 main_v12
  main_v13
-- ==== Kernel.lean ====
abbrev S131072x128 : Shape := ⟨2, ![131072, 128]⟩
abbrev S128x2x128 : Shape := ⟨3, ![128, 2, 128]⟩
abbrev S128x2 : Shape := ⟨2, ![128, 2]⟩
abbrev S128x256 : Shape := ⟨2, ![128, 256]⟩
abbrev S2x128 : Shape := ⟨2, ![2, 128]⟩
abbrev S1x256 : Shape := ⟨2, ![1, 256]⟩
abbrev S4096x128 : Shape := ⟨2, ![4096, 128]⟩
abbrev S4096x256 : Shape := ⟨2, ![4096, 256]⟩

abbrev nBuf : Space → Nat
  | .hbm => 9
  | .vmem => 8
  | .smem => 0
  | _ => 0

abbrev bufTy : (tb : Table) → Fin (tcTables nBuf tb) → BufTy
  | .hbm, ⟨0, _⟩ => ⟨S131072x128, .f32⟩
  | .hbm, ⟨1, _⟩ => ⟨S128x2x128, .f32⟩
  | .hbm, ⟨2, _⟩ => ⟨S128x2, .f32⟩
  | .hbm, ⟨3, _⟩ => ⟨S128x2x128, .f32⟩
  | .hbm, ⟨4, _⟩ => ⟨S128x256, .f32⟩
  | .hbm, ⟨5, _⟩ => ⟨S2x128, .f32⟩
  | .hbm, ⟨6, _⟩ => ⟨S1x256, .f32⟩
  | .hbm, ⟨7, _⟩ => ⟨S131072x128, .f32⟩
  | .hbm, ⟨8, _⟩ => ⟨S131072x128, .f32⟩
  | .local _ .vmem, ⟨0, _⟩ => ⟨S4096x128, .f32⟩
  | .local _ .vmem, ⟨1, _⟩ => ⟨S4096x128, .f32⟩
  | .local _ .vmem, ⟨2, _⟩ => ⟨S128x256, .f32⟩
  | .local _ .vmem, ⟨3, _⟩ => ⟨S1x256, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x2x128_S128x2x128_2_1_0 : S128x2x128.Transposes [2, 1, 0] S128x2x128
  shapeCasts_S128x2x128_S128x256 : S128x2x128.ShapeCasts S128x256
  transposes_S128x2_S2x128_1_0 : S128x2.Transposes [1, 0] S2x128
  shapeCasts_S2x128_S1x256 : S2x128.ShapeCasts S1x256
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  slices_S4096x256_o0_0_S4096x128 : S4096x256.Slices ![0, 0] S4096x128
  slices_S4096x256_o0_128_S4096x128 : S4096x256.Slices ![0, 128] S4096x128
  dot_S4096x128_S128x256_S4096x256_1_0_0_1_n_n_wf : DotDims.WF S4096x128 S128x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S131072x128.size a
  hwx0_3 : ∀ i : grid0.Coords, EltTy.bits .f32 = 32 ∨ (Rect.block (s := S131072x128) S4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S131072x128.size a
  hwx0_4 : ∀ i : grid0.Coords, EltTy.bits .f32 = 32 ∨ (Rect.block (s := S131072x128) S4096x128.size (cc0_transform_4 i) (hinb0_4 i)).WholeWords (EltTy.packing .f32)

variable [Facts₀]

def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S4096x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x128 : Shape := ⟨2, ![131072, 128]⟩
abbrev S128x2x128 : Shape := ⟨3, ![128, 2, 128]⟩
abbrev S128x2 : Shape := ⟨2, ![128, 2]⟩
abbrev S131072x128x2 : Shape := ⟨3, ![131072, 128, 2]⟩
abbrev S1x128x2 : Shape := ⟨3, ![1, 128, 2]⟩
abbrev S131072x128x1 : Shape := ⟨3, ![131072, 128, 1]⟩

abbrev nBuf : Space → Nat
  | .hbm => 11
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S128x2x128, .f32⟩
  | .hbm, ⟨2, _⟩ => ⟨S128x2, .f32⟩
  | .hbm, ⟨3, _⟩ => ⟨S131072x128x2, .f32⟩
  | .hbm, ⟨4, _⟩ => ⟨S1x128x2, .f32⟩
  | .hbm, ⟨5, _⟩ => ⟨S131072x128x2, .f32⟩
  | .hbm, ⟨6, _⟩ => ⟨S131072x128x2, .f32⟩
  | .hbm, ⟨7, _⟩ => ⟨S131072x128x1, .f32⟩
  | .hbm, ⟨8, _⟩ => ⟨S131072x128, .f32⟩
  | .hbm, ⟨9, _⟩ => ⟨S131072x128x1, .f32⟩
  | .hbm, ⟨10, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S128x2_S1x128x2_1_2 : S128x2.BroadcastsInDim S1x128x2 (![1, 2] : Fin 2 → Fin S1x128x2.rank)
  bcast_S1x128x2_S131072x128x2_0_1_2 : S1x128x2.BroadcastsInDim S131072x128x2 (![0, 1, 2] : Fin 3 → Fin S131072x128x2.rank)
  slices_S131072x128x2_S131072x128x1_0_0_0 : S131072x128x2.Slices ![0, 0, 0] S131072x128x1
  shapeCasts_S131072x128x1_S131072x128 : S131072x128x1.ShapeCasts S131072x128
  slices_S131072x128x2_S131072x128x1_0_0_1 : S131072x128x2.Slices ![0, 0, 1] S131072x128x1
  dot_S131072x128_S128x2x128_S131072x128x2_1_2_0_01_n_n_wf : DotDims.WF S131072x128 S128x2x128 S131072x128x2 [1] [2] [0] [0, 1] [] []

variable [Facts₀]

def dot_S131072x128_S128x2x128_S131072x128x2_1_2_0_01_n_n : DotDims S131072x128 S128x2x128 S131072x128x2 where
  lhsContracting := [1]
  rhsContracting := [2]
  lhsNonContracting := [0]
  rhsNonContracting := [0, 1]
  lhsBatch := []
  rhsBatch := []
  wf := dot_S131072x128_S128x2x128_S131072x128x2_1_2_0_01_n_n_wf

class Facts : Prop extends Facts₀ where

variable [Facts]
-- ==== Proof.Heads.lean ====
/-
  What both programs compute, stated once, index by index, over the extended reals.

  There are 128 small linear layers ("nodes"), each with two output heads. For batch row `r`, node `n` and head `o`
  the value is the inner product of row `r` of the state with node `n`'s weight row for head `o`, plus that node's
  bias for the head:

      head o x w b (r, n) = (∑ k, x (r, k) * w (n, o, k)) + b (n, o).

  Head 0 is the first result array ("delta"), head 1 the second ("var"). The sum runs over the 128 input features
  in one fixed order on both sides, so no law of the extended reals beyond rewriting indices is ever needed: the
  precondition (finite inputs) is not used by the value argument.
-/
import Idealize.ShloMosaic.PureOps.Ideal
import Idealize.ShloMosaic.Lib.ValueIdx

noncomputable section

namespace Cert.Heads

open Idealize.ShloMosaic Idealize.ShloMosaic.ValueIdx

/-- The state: 131072 batch rows of 128 features. -/
abbrev StateShape : Shape := ⟨2, ![131072, 128]⟩
/-- The stacked weights: node, head, feature. -/
abbrev WeightShape : Shape := ⟨3, ![128, 2, 128]⟩
/-- The stacked biases: node, head. -/
abbrev BiasShape : Shape := ⟨2, ![128, 2]⟩

/-- Head `o` of every node on every batch row: entry `(r, n)` is the inner product of state row `r` with the weight
    row of node `n`, head `o`, plus the bias of node `n`, head `o`. -/
def head (o : Fin 2) (x : FVec Ideal StateShape .f32) (w : FVec Ideal WeightShape .f32) (b : FVec Ideal BiasShape .f32) :
    FVec Ideal StateShape .f32 :=
  fun j => (∑ k : Fin 128, x (ix2 (j 0) k) * w (ix3 (j 1) o k)) + b (ix2 (j 1) o)

/-- The specification read at explicit coordinates. -/
theorem head_apply (o : Fin 2) (x : FVec Ideal StateShape .f32) (w : FVec Ideal WeightShape .f32) (b : FVec Ideal BiasShape .f32)
    (r : Fin 131072) (n : Fin 128) :
    head o x w b (ix2 r n) = (∑ k : Fin 128, x (ix2 r k) * w (ix3 n o k)) + b (ix2 n o) := rfl

end Cert.Heads

end
-- ==== Proof.RefHeads.lean ====
/-
  The reference, stage by stage, is the specification.

  The reference contracts the state's feature axis with the weights' feature axis, which leaves an array indexed
  (row, node, head); it adds the bias broadcast along the rows, slices out one head and drops the unit axis.
  Reading those stages at an index `(r, n)` of a result gives the inner product of state row `r` with the weight row
  of node `n` for the chosen head, plus that bias: `Cert.Heads.head`. Only indices are rewritten; the sum is the
  same sum over the 128 features.
-/
import proofs.«110786_j25786983646071_1_alg».proof.Proof.Gen.ReferenceIdeal.Read
import proofs.«110786_j25786983646071_1_alg».proof.Proof.Heads

noncomputable section

namespace Cert.ReferenceIdeal.RefHeads

open Cert.ReferenceIdeal Cert.ReferenceIdeal.Gen Cert.ReferenceIdeal.Read Idealize.ShloMosaic Idealize.ShloMosaic.ValueIdx Cert.Heads

/-- Dropping the trailing unit axis of a (row, node, 1) array and then slicing at head 0: the state row read is `r`. -/
theorem lhs_row0 (i : S131072x128.Idx) (k : Fin 128) : lidx_main_v0 (idx_main_v4 (idx_main_v5 i)) k = ix2 (i 0) k := by
  have h0 : (i 0).val < 131072 := (i 0).isLt
  have h1 : (i 1).val < 128 := (i 1).isLt
  funext a; apply Fin.ext
  match a with
  | ⟨0, _⟩ => show ((i 0).val * 128 + (i 1).val) / 128 = (i 0).val; omega
  | ⟨1, _⟩ => rfl

/-- … and the weight row read is that of node `n`, head 0. -/
theorem rhs_row0 (i : S131072x128.Idx) (k : Fin 128) : ridx_main_v0 (idx_main_v4 (idx_main_v5 i)) k = ix3 (i 1) (0 : Fin 2) k := by
  have h0 : (i 0).val < 131072 := (i 0).isLt
  have h1 : (i 1).val < 128 := (i 1).isLt
  funext a; apply Fin.ext
  match a with
  | ⟨0, _⟩ => show ((i 0).val * 128 + (i 1).val) / 1 % 128 = (i 1).val; omega
  | ⟨1, _⟩ => rfl
  | ⟨2, _⟩ => rfl

/-- … and the bias read is that of node `n`, head 0. -/
theorem bias_row0 (i : S131072x128.Idx) : idx_main_v1 (idx_main_v2 (idx_main_v4 (idx_main_v5 i))) = ix2 (i 1) (0 : Fin 2) := by
  have h0 : (i 0).val < 131072 := (i 0).isLt
  have h1 : (i 1).val < 128 := (i 1).isLt
  funext a; apply Fin.ext
  match a with
  | ⟨0, _⟩ => show ((i 0).val * 128 + (i 1).val) / 1 % 128 = (i 1).val; omega
  | ⟨1, _⟩ => rfl

/-- The same three index facts for the slice at head 1. -/
theorem lhs_row1 (i : S131072x128.Idx) (k : Fin 128) : lidx_main_v0 (idx_main_v6 (idx_main_v7 i)) k = ix2 (i 0) k := by
  have h0 : (i 0).val < 131072 := (i 0).isLt
  have h1 : (i 1).val < 128 := (i 1).isLt
  funext a; apply Fin.ext
  match a with
  | ⟨0, _⟩ => show ((i 0).val * 128 + (i 1).val) / 128 = (i 0).val; omega
  | ⟨1, _⟩ => rfl

theorem rhs_row1 (i : S131072x128.Idx) (k : Fin 128) : ridx_main_v0 (idx_main_v6 (idx_main_v7 i)) k = ix3 (i 1) (1 : Fin 2) k := by
  have h0 : (i 0).val < 131072 := (i 0).isLt
  have h1 : (i 1).val < 128 := (i 1).isLt
  funext a; apply Fin.ext
  match a with
  | ⟨0, _⟩ => show ((i 0).val * 128 + (i 1).val) / 1 % 128 = (i 1).val; omega
  | ⟨1, _⟩ => rfl
  | ⟨2, _⟩ => rfl

theorem bias_row1 (i : S131072x128.Idx) : idx_main_v1 (idx_main_v2 (idx_main_v6 (idx_main_v7 i))) = ix2 (i 1) (1 : Fin 2) := by
  have h0 : (i 0).val < 131072 := (i 0).isLt
  have h1 : (i 1).val < 128 := (i 1).isLt
  funext a; apply Fin.ext
  match a with
  | ⟨0, _⟩ => show ((i 0).val * 128 + (i 1).val) / 1 % 128 = (i 1).val; omega
  | ⟨1, _⟩ => rfl

/-- The reference's first result is head 0 of the specification. -/
theorem first_is_head0 (x0 : FVec Ideal S131072x128 .f32) (x1 : FVec Ideal S128x2x128 .f32) (x2 : FVec Ideal S128x2 .f32) :
    val_main_v5 (F := Ideal) x0 x1 x2 = head 0 x0 x1 x2 := by
  funext i
  rw [val_main_v5_apply, val_main_v4_apply, val_main_v3_apply, val_main_v0_apply, val_main_v2_apply, val_main_v1_apply]
  show (∑ k : Fin 128, x0 (lidx_main_v0 (idx_main_v4 (idx_main_v5 i)) k) * x1 (ridx_main_v0 (idx_main_v4 (idx_main_v5 i)) k))
      + x2 (idx_main_v1 (idx_main_v2 (idx_main_v4 (idx_main_v5 i))))
    = (∑ k : Fin 128, x0 (ix2 (i 0) k) * x1 (ix3 (i 1) (0 : Fin 2) k)) + x2 (ix2 (i 1) (0 : Fin 2))
  rw [bias_row0 i]
  exact congrArg (· + x2 (ix2 (i 1) (0 : Fin 2))) (Finset.sum_congr rfl fun k _ => by rw [lhs_row0 i k, rhs_row0 i k]; rfl)

/-- The reference's second result is head 1 of the specification. -/
theorem second_is_head1 (x0 : FVec Ideal S131072x128 .f32) (x1 : FVec Ideal S128x2x128 .f32) (x2 : FVec Ideal S128x2 .f32) :
    val_main_v7 (F := Ideal) x0 x1 x2 = head 1 x0 x1 x2 := by
  funext i
  rw [val_main_v7_apply, val_main_v6_apply, val_main_v3_apply, val_main_v0_apply, val_main_v2_apply, val_main_v1_apply]
  show (∑ k : Fin 128, x0 (lidx_main_v0 (idx_main_v6 (idx_main_v7 i)) k) * x1 (ridx_main_v0 (idx_main_v6 (idx_main_v7 i)) k))
      + x2 (idx_main_v1 (idx_main_v2 (idx_main_v6 (idx_main_v7 i))))
    = (∑ k : Fin 128, x0 (ix2 (i 0) k) * x1 (ix3 (i 1) (1 : Fin 2) k)) + x2 (ix2 (i 1) (1 : Fin 2))
  rw [bias_row1 i]
  exact congrArg (· + x2 (ix2 (i 1) (1 : Fin 2))) (Finset.sum_congr rfl fun k _ => by rw [lhs_row1 i k, rhs_row1 i k]; rfl)

end Cert.ReferenceIdeal.RefHeads

end
-- ==== Proof.KernelBlock.lean ====
/-
  One grid point of the kernel, as arithmetic.

  Before the call the host re-lays the parameters: the weights (node, head, feature) are transposed to
  (feature, head, node) and flattened to a [128, 256] matrix whose column `o * 128 + n` is the weight row of
  node `n`, head `o`; the biases (node, head) are transposed and flattened to a [1, 256] row with the same column
  order. In the body, a block of 4096 state rows is multiplied by that matrix into a zero accumulator and the bias
  row is added to every row: entry `(r, c)` of the [4096, 256] product is
  `(∑ k, x (r, k) * wcomb (k, c)) + bcomb (0, c)`. Columns 0..127 are head 0, columns 128..255 head 1.
  (The two narrowings to bf16 before the product are the identity on extended reals.)
-/
import proofs.«110786_j25786983646071_1_alg».proof.Proof.Gen.KernelIdeal.Value
import proofs.«110786_j25786983646071_1_alg».proof.Proof.Heads
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-! ## The host's re-laying of the parameters, read at an index -/

/-- Column `o * 128 + n`, row `k` of the flattened transposed weights is the weight of node `n`, head `o`, feature `k`. -/
theorem weights_relaid {α : Type} (w : S128x2x128.Idx → α) (k n : Fin 128) (o : Fin 2) (j : S128x256.Idx)
    (hj0 : (j 0).val = k.val) (hj1 : (j 1).val = o.val * 128 + n.val) :
    shapeCast S128x256 (transpose S128x2x128 [2, 1, 0] w transposes_S128x2x128_S128x2x128_2_1_0) shapeCasts_S128x2x128_S128x256 j
      = w (ix3 n o k) := by
  have hk : k.val < 128 := k.isLt
  have hn : n.val < 128 := n.isLt
  have ho : o.val < 2 := o.isLt
  refine (shapeCast_apply _ shapeCasts_S128x2x128_S128x256 j (ix3 k o n) ?_).trans ?_
  · rw [Shape.rowMajor_val_three, Shape.rowMajor_val_two]
    show (k.val * 2 + o.val) * 128 + n.val = (j 0).val * 256 + (j 1).val
    omega
  · exact transpose_apply [2, 1, 0] w transposes_S128x2x128_S128x2x128_2_1_0 (ix3 k o n) (ix3 n o k)
      (fun b => match b with | ⟨0, _⟩ => rfl | ⟨1, _⟩ => rfl | ⟨2, _⟩ => rfl)

/-- Column `o * 128 + n` of the flattened transposed biases is the bias of node `n`, head `o`. -/
theorem biases_relaid {α : Type} (b : S128x2.Idx → α) (n : Fin 128) (o : Fin 2) (j : S1x256.Idx)
    (hj1 : (j 1).val = o.val * 128 + n.val) :
    shapeCast S1x256 (transpose S2x128 [1, 0] b transposes_S128x2_S2x128_1_0) shapeCasts_S2x128_S1x256 j
      = b (ix2 n o) := by
  have hn : n.val < 128 := n.isLt
  have ho : o.val < 2 := o.isLt
  have hj0 : (j 0).val < 1 := (j 0).isLt
  refine (shapeCast_apply _ shapeCasts_S2x128_S1x256 j (ix2 o n) ?_).trans ?_
  · rw [Shape.rowMajor_val_two, Shape.rowMajor_val_two]
    show o.val * 128 + n.val = (j 0).val * 256 + (j 1).val
    omega
  · exact transpose_apply [1, 0] b transposes_S128x2_S2x128_1_0 (ix2 o n) (ix2 n o)
      (fun b => match b with | ⟨0, _⟩ => rfl | ⟨1, _⟩ => rfl)

/-! ## The product's operand indices -/

theorem lhs_mm_0 (i : S4096x256.Idx) (q : dot_S4096x128_S128x256_S4096x256_1_0_0_1_n_n.contr.Idx) :
    (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
theorem lhs_mm_1 (i : S4096x256.Idx) (q : dot_S4096x128_S128x256_S4096x256_1_0_0_1_n_n.contr.Idx) :
    (dot_S4096x128_S128x256_S4096x256_1_0_0_1_n_n.lhsIdx i q 1).val = (q ⟨0, by decide⟩).val :=
  dot_S4096x128_S128x256_S4096x256_1_0_0_1_n_n.lhsIdx_val_of_single rfl i q
theorem rhs_mm_0 (i : S4096x256.Idx) (q : dot_S4096x128_S128x256_S4096x256_1_0_0_1_n_n.contr.Idx) :
    (dot_S4096x128_S128x256_S4096x256_1_0_0_1_n_n.rhsIdx i q 0).val = (q ⟨0, by decide⟩).val :=
  dot_S4096x128_S128x256_S4096x256_1_0_0_1_n_n.rhsIdx_val_of_single rfl i q
theorem rhs_mm_1 (i : S4096x256.Idx) (q : dot_S4096x128_S128x256_S4096x256_1_0_0_1_n_n.contr.Idx) :
    (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl

/-- The product into the zero accumulator, read at `(r, c)`: the inner product of row `r` of the left operand with
    column `c` of the right. -/
theorem product_apply (x : FVec Ideal S4096x128 .bf16) (w : FVec Ideal S128x256 .bf16) (r : Fin 4096) (c : Fin 256) :
    FloatOps.matmul dot_S4096x128_S128x256_S4096x256_1_0_0_1_n_n none x w (constant S4096x256 .f32 0x00000000#32) (ix2 r c)
      = ∑ k : Fin 128, x (ix2 r k) * w (ix2 k c) := by
  rw [Ideal.matmul_constant_zero_apply, ← Equiv.sum_comp (ValueIdx.contrEquiv1 dot_S4096x128_S128x256_S4096x256_1_0_0_1_n_n 128 rfl rfl).symm]
  refine Finset.sum_congr rfl fun k _ => ?_
  have hk := ValueIdx.contrEquiv1_symm_val dot_S4096x128_S128x256_S4096x256_1_0_0_1_n_n 128 rfl rfl k
  have el : dot_S4096x128_S128x256_S4096x256_1_0_0_1_n_n.lhsIdx (ix2 r c) ((ValueIdx.contrEquiv1 dot_S4096x128_S128x256_S4096x256_1_0_0_1_n_n 128 rfl rfl).symm k) = ix2 r k := funext fun a => Fin.ext (by
    match a with
    | ⟨0, _⟩ => exact lhs_mm_0 _ _
    | ⟨1, _⟩ => exact (lhs_mm_1 _ _).trans hk)
  have er : dot_S4096x128_S128x256_S4096x256_1_0_0_1_n_n.rhsIdx (ix2 r c) ((ValueIdx.contrEquiv1 dot_S4096x128_S128x256_S4096x256_1_0_0_1_n_n 128 rfl rfl).symm k) = ix2 k c := funext fun a => Fin.ext (by
    match a with
    | ⟨0, _⟩ => exact (rhs_mm_0 _ _).trans hk
    | ⟨1, _⟩ => exact rhs_mm_1 _ _)
  rw [el, er]

/-- The bias row broadcast down the 4096 rows, read at `(r, c)`. -/
theorem bias_rows_apply {α : Type} (b : S1x256.Idx → α) (r : Fin 4096) (c : Fin 256) :
    broadcastTo S4096x256 b broadcasts_S1x256_S4096x256 (ix2 r c) = b (ix2 (0 : Fin 1) c) :=
  broadcastTo_apply b broadcasts_S1x256_S4096x256 (ix2 r c) (ix2 (0 : Fin 1) c) (fun a => match a with
    | ⟨0, _⟩ => by show 0 = if (1 : Nat) = 1 then 0 else r.val; rw [if_pos rfl]
    | ⟨1, _⟩ => by show c.val = if (256 : Nat) = 1 then 0 else c.val; rw [if_neg (by decide)])

/-- The body's [4096, 256] value at `(r, c)`: the inner product of state row `r` with column `c` of the re-laid weights,
    plus entry `c` of the re-laid biases. -/
theorem body_apply (P0 : Vec Ideal S4096x128 .f32) (P1 : Vec Ideal S128x256 .f32) (P2 : Vec Ideal S1x256 .f32) (r : Fin 4096) (c : Fin 256) :
    k0_pay1 (F := Ideal) P0 P1 P2 (ix2 r c) = (∑ k : Fin 128, P0 (ix2 r k) * P1 (ix2 k c)) + P2 (ix2 (0 : Fin 1) c) := by
  unfold k0_pay1
  rw [shapeCast_self, shapeCast_self]
  show FloatOps.matmul (F := Ideal) dot_S4096x128_S128x256_S4096x256_1_0_0_1_n_n none (truncf (F := Ideal) .bf16 P0 bitsLt_bf16_f32) (truncf (F := Ideal) .bf16 P1 bitsLt_bf16_f32) (constant (F := Ideal) S4096x256 .f32 0x00000000#32) (ix2 r c)
      + broadcastTo S4096x256 P2 broadcasts_S1x256_S4096x256 (ix2 r c) = _
  rw [product_apply, bias_rows_apply]
  rfl

/-! ## The two stored halves -/

/-- The first stored half is columns 0..127 of the body's value. -/
theorem first_half_apply {F : FTy → Type} [FloatOps F] (P0 : Vec F S4096x128 .f32) (P1 : Vec F S128x256 .f32) (P2 : Vec F S1x256 .f32) (y : S4096x128.Idx) :
    k0_pay2 P0 P1 P2 y = k0_pay1 P0 P1 P2 (ix2 (y 0) (⟨(y 1).val, by have h : (y 1).val < 128 := (y 1).isLt; omega⟩ : Fin 256)) := by
  unfold k0_pay2
  exact extractStridedSlice_apply ![0, 0] (k0_pay1 P0 P1 P2) slices_S4096x256_o0_0_S4096x128 y _ (fun a => match a with
    | ⟨0, _⟩ => by show (y 0).val = 0 + (y 0).val; omega
    | ⟨1, _⟩ => by show (y 1).val = 0 + (y 1).val; omega)

/-- The second stored half is columns 128..255 of the body's value. -/
theorem second_half_apply {F : FTy → Type} [FloatOps F] (P0 : Vec F S4096x128 .f32) (P1 : Vec F S128x256 .f32) (P2 : Vec F S1x256 .f32) (y : S4096x128.Idx) :
    k0_pay3 P0 P1 P2 y = k0_pay1 P0 P1 P2 (ix2 (y 0) (⟨(y 1).val + 128, by have h : (y 1).val < 128 := (y 1).isLt; omega⟩ : Fin 256)) := by
  unfold k0_pay3
  exact extractStridedSlice_apply ![0, 128] (k0_pay1 P0 P1 P2) slices_S4096x256_o0_128_S4096x128 y _ (fun a => match a with
    | ⟨0, _⟩ => by show (y 0).val = 0 + (y 0).val; omega
    | ⟨1, _⟩ => by show (y 1).val + 128 = 128 + (y 1).val; omega)

/-! ## A grid point's value against the specification -/

/-- If row `y 0` of the state block is row `Y 0` of the state, column `c` of the matrix operand is the weight row of
    node `Y 1`, head `o`, and entry `c` of the bias operand is that node's bias for the head, then the body's value at
    `(y 0, c)` is the specification's head `o` at `Y`. -/
theorem head_at_point (o : Fin 2) (x : FVec Ideal Cert.Heads.StateShape .f32) (w : FVec Ideal Cert.Heads.WeightShape .f32)
    (b : FVec Ideal Cert.Heads.BiasShape .f32)
    (P0 : Vec Ideal S4096x128 .f32) (P1 : Vec Ideal S128x256 .f32) (P2 : Vec Ideal S1x256 .f32)
    (r : Fin 4096) (c : Fin 256) (Y : Cert.Heads.StateShape.Idx)
    (h0 : ∀ k : Fin 128, P0 (ix2 r k) = x (ix2 (Y 0) k))
    (h1 : ∀ k : Fin 128, P1 (ix2 k c) = w (ix3 (Y 1) o k))
    (h2 : P2 (ix2 (0 : Fin 1) c) = b (ix2 (Y 1) o)) :
    k0_pay1 (F := Ideal) P0 P1 P2 (ix2 r c) = Cert.Heads.head o x w b Y := by
  rw [body_apply, h2]
  unfold Cert.Heads.head
  exact congrArg (· + b (ix2 (Y 1) o)) (Finset.sum_congr rfl fun k _ => by rw [h0 k, h1 k])

end Cert.KernelIdeal.Block

end
-- ==== Proof.KernelHeads.lean ====
/-
  From grid points to whole arrays.

  The grid has 32 points; point `t` reads rows `4096 t … 4096 t + 4095` of the state and the whole re-laid weight
  matrix and bias row, and writes the same rows of both results. At each point the stored halves of the body's value
  are, entry by entry, the specification's two heads at the rows the point covers (the re-laid column `o * 128 + n`
  is node `n`, head `o`). The 32 row blocks tile each result, so each result array ends as one head of the
  specification, whole.
-/
import proofs.«110786_j25786983646071_1_alg».proof.Proof.Gen.KernelIdeal.Value
import proofs.«110786_j25786983646071_1_alg».proof.Proof.KernelBlock
import Idealize.ShloMosaic.Lib.StableHlo.Run
import Idealize.ShloMosaic.Lib.Pipeline.Value
import Idealize.ShloMosaic.Lib.Tactic

noncomputable section

namespace Cert.KernelIdeal.Heads

open Cert.KernelIdeal Cert.KernelIdeal.Gen Cert.KernelIdeal.Value Cert.KernelIdeal.Block
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## What the region finds: the parameters re-laid by the host -/

/-- The matrix operand's array at region entry: the weights transposed to (feature, head, node) and flattened. -/
theorem entry_weights (c : Dev nD) :
    (V m c main_v1 : S128x256.Idx → EReal)
      = shapeCast S128x256 (transpose S128x2x128 [2, 1, 0] (m ((c : Thread nD τ).loc main_arg1)) transposes_S128x2x128_S128x2x128_2_1_0) shapeCasts_S128x2x128_S128x256 := by
  dsimp only [Gen.V, Gen.hostOps0]; after_results; rfl

/-- The bias operand's array at region entry: the biases transposed to (head, node) and flattened. -/
theorem entry_biases (c : Dev nD) :
    (V m c main_v3 : S1x256.Idx → EReal)
      = shapeCast S1x256 (transpose S2x128 [1, 0] (m ((c : Thread nD τ).loc main_arg2)) transposes_S128x2_S2x128_1_0) shapeCasts_S2x128_S1x256 := by
  dsimp only [Gen.V, Gen.hostOps0]; after_results; rfl

/-! ## The index maps, decided over the 32 points -/

/-- The state and both results move one row block per point; the parameters' windows never move. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Every one of the 32 row blocks is some point's. -/
theorem point_of_rows : ∀ q : Fin 32, ∃ t : Fin cfg0.N, t.val = q.val :=
  (by decide +kernel : ∀ q : Fin 32, ∃ t : Fin grid0.N, t.val = q.val)

/-! ## Result 0 -/

/-- WHAT POINT `t` WRITES BACK to result 0: rows `4096 t … 4096 t + 4095` of head 0 of the specification. -/
theorem flushed3_eq (c : Dev nD) (t : Fin cfg0.N) :
    (dats m 0 c).flushed 3 t = ((cfg0.win 3).blk t).view.read (Elt Ideal) (Cert.Heads.head 0 (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero hz]
  simp only [View.ld_unit_zero (S := S4096x128) hz, View.ld_unit_zero (S := S128x256) hz, View.ld_unit_zero (S := S1x256) hz]
  obtain ⟨e00, e01, e10, e11, e20, e21, e30, e31, e40, e41⟩ := idx_facts t
  funext j
  have hj0 : (j 0).val < 4096 := (j 0).isLt
  have hj1 : (j 1).val < 128 := (j 1).isLt
  show k0_pay2 (iblk m c 0 t : Vec Ideal S4096x128 .f32) (iblk m c 1 t : Vec Ideal S128x256 .f32) (iblk m c 2 t : Vec Ideal S1x256 .f32) (j : S4096x128.Idx)
    = Cert.Heads.head 0 (m ((c : Thread nD τ).loc main_arg0)) (m ((c : Thread nD τ).loc main_arg1)) (m ((c : Thread nD τ).loc main_arg2)) (((cfg0.win 3).blk t).view.emb j)
  rw [first_half_apply]
  refine head_at_point 0 _ _ _ _ _ _ _ _ _ (fun k => ?_) (fun k => ?_) ?_
  · -- the state block's row is the state's row `4096 t + j 0`
    show V m c main_arg0 (((cfg0.win 0).blk t).view.emb (ix2 (j 0) k)) = m ((c : Thread nD τ).loc main_arg0) _
    rw [V_main_arg0]
    congr 1; funext a; apply Fin.ext
    match a with
    | ⟨0, _⟩ => show win0_0.index t (0 : Fin 2) * 4096 + 1 * (j 0).val = win0_3.index t (0 : Fin 2) * 4096 + 1 * (j 0).val; omega
    | ⟨1, _⟩ => show win0_0.index t (1 : Fin 2) * 128 + 1 * k.val = k.val; omega
  · -- the matrix operand is the re-laid weights, whole
    show V m c main_v1 (((cfg0.win 1).blk t).view.emb (ix2 k (⟨(j 1).val, by omega⟩ : Fin 256))) = m ((c : Thread nD τ).loc main_arg1) _
    rw [entry_weights]
    refine weights_relaid _ k _ 0 _ ?_ ?_
    · show win0_1.index t (0 : Fin 2) * 128 + 1 * k.val = k.val; omega
    · show win0_1.index t (1 : Fin 2) * 256 + 1 * (j 1).val = (0 : Fin 2).val * 128 + (win0_3.index t (1 : Fin 2) * 128 + 1 * (j 1).val)
      have ho : ((0 : Fin 2) : Nat) = 0 := rfl
      omega
  · -- the bias operand is the re-laid biases, whole
    show V m c main_v3 (((cfg0.win 2).blk t).view.emb (ix2 (0 : Fin 1) (⟨(j 1).val, by omega⟩ : Fin 256))) = m ((c : Thread nD τ).loc main_arg2) _
    rw [entry_biases]
    refine biases_relaid _ _ 0 _ ?_
    show win0_2.index t (1 : Fin 2) * 256 + 1 * (j 1).val = (0 : Fin 2).val * 128 + (win0_3.index t (1 : Fin 2) * 128 + 1 * (j 1).val)
    have ho : ((0 : Fin 2) : Nat) = 0 := rfl
    omega

/-- An index of result 0 is in point `t`'s block iff each coordinate is in the block's range on its axis. -/
theorem mem_blk3 (t : Fin cfg0.N) (i : S131072x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v4_0).slice (win0_3.rect t)).set ↔ _
  rw [View.set_slice_whole, Rect.mem_set_unit]
  exact Iff.rfl

/-- Every index of result 0 lies in the block of the point `(i 0) / 4096`: the 32 row blocks tile the array. -/
theorem covered3 (i : S131072x128.Idx) : ∃ t : Fin cfg0.N, (cfg0.win 3).flush t = true ∧ i ∈ ((cfg0.win 3).blk t).view.set := by
  have hi0 : (i 0).val < 131072 := (i 0).isLt
  have hi1 : (i 1).val < 128 := (i 1).isLt
  obtain ⟨t, ht⟩ := point_of_rows ⟨(i 0).val / 4096, by omega⟩
  have ht' : t.val = (i 0).val / 4096 := ht
  obtain ⟨e00, e01, e10, e11, e20, e21, e30, e31, e40, e41⟩ := idx_facts t
  refine ⟨t, flush0_3 t, ?_⟩
  rw [mem_blk3]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

/-- So result 0 ends holding head 0 of the specification. -/
theorem final3 (c : Dev nD) : (dats m 0 c).arrAt 3 cfg0.N = (Cert.Heads.head 0 (m ((c : Thread nD τ).loc main_arg0)) (m ((c : Thread nD τ).loc main_arg1)) (m ((c : Thread nD τ).loc main_arg2))) :=
  (dats m 0 c).arrAt_eq_of_cover 3 (Cert.Heads.head 0 (m ((c : Thread nD τ).loc main_arg0)) (m ((c : Thread nD τ).loc main_arg1)) (m ((c : Thread nD τ).loc main_arg2))) (fun t _ => flushed3_eq m c t) covered3

/-! ## Result 1 -/

/-- WHAT POINT `t` WRITES BACK to result 1: rows `4096 t … 4096 t + 4095` of head 1 of the specification. -/
theorem flushed4_eq (c : Dev nD) (t : Fin cfg0.N) :
    (dats m 0 c).flushed 4 t = ((cfg0.win 4).blk t).view.read (Elt Ideal) (Cert.Heads.head 1 (m ((c : Thread nD τ).loc main_arg0)) (m ((c : Thread nD τ).loc main_arg1)) (m ((c : Thread nD τ).loc main_arg2))) := by
  show (cfg0.win 4).cut (grid0.coords t) ((dats m 0 c).after 4 t) = _
  rw [after0_4]
  unfold out0_4
  rw [View.canon_unit_zero hz]
  simp only [View.ld_unit_zero (S := S4096x128) hz, View.ld_unit_zero (S := S128x256) hz, View.ld_unit_zero (S := S1x256) hz]
  obtain ⟨e00, e01, e10, e11, e20, e21, e30, e31, e40, e41⟩ := idx_facts t
  funext j
  have hj0 : (j 0).val < 4096 := (j 0).isLt
  have hj1 : (j 1).val < 128 := (j 1).isLt
  show k0_pay3 (iblk m c 0 t : Vec Ideal S4096x128 .f32) (iblk m c 1 t : Vec Ideal S128x256 .f32) (iblk m c 2 t : Vec Ideal S1x256 .f32) (j : S4096x128.Idx)
    = Cert.Heads.head 1 (m ((c : Thread nD τ).loc main_arg0)) (m ((c : Thread nD τ).loc main_arg1)) (m ((c : Thread nD τ).loc main_arg2)) (((cfg0.win 4).blk t).view.emb j)
  rw [second_half_apply]
  refine head_at_point 1 _ _ _ _ _ _ _ _ _ (fun k => ?_) (fun k => ?_) ?_
  · -- the state block's row is the state's row `4096 t + j 0`
    show V m c main_arg0 (((cfg0.win 0).blk t).view.emb (ix2 (j 0) k)) = m ((c : Thread nD τ).loc main_arg0) _
    rw [V_main_arg0]
    congr 1; funext a; apply Fin.ext
    match a with
    | ⟨0, _⟩ => show win0_0.index t (0 : Fin 2) * 4096 + 1 * (j 0).val = win0_4.index t (0 : Fin 2) * 4096 + 1 * (j 0).val; omega
    | ⟨1, _⟩ => show win0_0.index t (1 : Fin 2) * 128 + 1 * k.val = k.val; omega
  · -- the matrix operand is the re-laid weights, whole
    show V m c main_v1 (((cfg0.win 1).blk t).view.emb (ix2 k (⟨(j 1).val + 128, by omega⟩ : Fin 256))) = m ((c : Thread nD τ).loc main_arg1) _
    rw [entry_weights]
    refine weights_relaid _ k _ 1 _ ?_ ?_
    · show win0_1.index t (0 : Fin 2) * 128 + 1 * k.val = k.val; omega
    · show win0_1.index t (1 : Fin 2) * 256 + 1 * ((j 1).val + 128) = (1 : Fin 2).val * 128 + (win0_4.index t (1 : Fin 2) * 128 + 1 * (j 1).val)
      have ho : ((1 : Fin 2) : Nat) = 1 := rfl
      omega
  · -- the bias operand is the re-laid biases, whole
    show V m c main_v3 (((cfg0.win 2).blk t).view.emb (ix2 (0 : Fin 1) (⟨(j 1).val + 128, by omega⟩ : Fin 256))) = m ((c : Thread nD τ).loc main_arg2) _
    rw [entry_biases]
    refine biases_relaid _ _ 1 _ ?_
    show win0_2.index t (1 : Fin 2) * 256 + 1 * ((j 1).val + 128) = (1 : Fin 2).val * 128 + (win0_4.index t (1 : Fin 2) * 128 + 1 * (j 1).val)
    have ho : ((1 : Fin 2) : Nat) = 1 := rfl
    omega

/-- An index of result 1 is in point `t`'s block iff each coordinate is in the block's range on its axis. -/
theorem mem_blk4 (t : Fin cfg0.N) (i : S131072x128.Idx) :
    i ∈ ((cfg0.win 4).blk t).view.set ↔ ∀ a : Fin 2, win0_4.index t a * S4096x128.size a ≤ (i a).val ∧ (i a).val < win0_4.index t a * S4096x128.size a + S4096x128.size a := by
  show i ∈ ((View.whole main_v4_1).slice (win0_4.rect t)).set ↔ _
  rw [View.set_slice_whole, Rect.mem_set_unit]
  exact Iff.rfl

/-- Every index of result 1 lies in the block of the point `(i 0) / 4096`: the 32 row blocks tile the array. -/
theorem covered4 (i : S131072x128.Idx) : ∃ t : Fin cfg0.N, (cfg0.win 4).flush t = true ∧ i ∈ ((cfg0.win 4).blk t).view.set := by
  have hi0 : (i 0).val < 131072 := (i 0).isLt
  have hi1 : (i 1).val < 128 := (i 1).isLt
  obtain ⟨t, ht⟩ := point_of_rows ⟨(i 0).val / 4096, by omega⟩
  have ht' : t.val = (i 0).val / 4096 := ht
  obtain ⟨e00, e01, e10, e11, e20, e21, e30, e31, e40, e41⟩ := idx_facts t
  refine ⟨t, flush0_4 t, ?_⟩
  rw [mem_blk4]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 128 ≤ (i 1).val ∧ (i 1).val < win0_4.index t (1 : Fin 2) * 128 + 128; omega

/-- So result 1 ends holding head 1 of the specification. -/
theorem final4 (c : Dev nD) : (dats m 0 c).arrAt 4 cfg0.N = (Cert.Heads.head 1 (m ((c : Thread nD τ).loc main_arg0)) (m ((c : Thread nD τ).loc main_arg1)) (m ((c : Thread nD τ).loc main_arg2))) :=
  (dats m 0 c).arrAt_eq_of_cover 4 (Cert.Heads.head 1 (m ((c : Thread nD τ).loc main_arg0)) (m ((c : Thread nD τ).loc main_arg1)) (m ((c : Thread nD τ).loc main_arg2))) (fun t _ => flushed4_eq m c t) covered4

/-! ## The run, read -/

/-- Every weakly fair execution of the kernel program terminates with the two results at the specification's two heads
    of the arguments, and the arguments unchanged. -/
theorem run : θ_run defs (onTc (τ := τ) (main (F := Ideal))) ⟨m, fun _ => 0, ρ⟩ fun r => ∀ c : Dev nD,
      r.2.mem ((c : Thread nD τ).loc main_v4_0) = (Cert.Heads.head 0 (m ((c : Thread nD τ).loc main_arg0)) (m ((c : Thread nD τ).loc main_arg1)) (m ((c : Thread nD τ).loc main_arg2)))
      ∧ r.2.mem ((c : Thread nD τ).loc main_v4_1) = (Cert.Heads.head 1 (m ((c : Thread nD τ).loc main_arg0)) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.Heads

end
-- ==== Proof.lean ====
/-
  The certificate of a batch of tiny linear layers with two heads each.

  For a state of 131072 rows of 128 features, stacked weights (node, head, feature) and stacked biases (node, head),
  both programs return two [131072, 128] arrays: entry `(r, n)` of result `o` is
  `(∑ k, state (r, k) * W (n, o, k)) + b (n, o)` (`Cert.Heads.head`).

  * The reference contracts the feature axes directly, adds the broadcast bias and slices out each head
    (`Proof/RefHeads.lean`, over the generated stage-by-stage reading of its run).
  * The kernel program first re-lays the parameters on the host — weights to a [128, 256] matrix, biases to a
    [1, 256] row, column `o * 128 + n` holding node `n`, head `o` — and then, per block of 4096 rows, multiplies
    the state block by that matrix into a zero accumulator, adds the bias row and stores the two 128-column halves
    (`Proof/KernelBlock.lean`: one grid point as arithmetic; `Proof/KernelHeads.lean`: the 32 row blocks tile each
    result). The narrowings to bf16 before the product are the identity on the extended reals.

  Both sides are the same sum over the 128 features in the same order plus the same bias, so the two results are
  equal entry by entry with no algebra beyond rewriting indices; the finiteness precondition is not used. The
  idealization rewrote no operation, so `preserves` has nothing to state. The three frames are the generated ones
  (the reference's is its generated run with the results dropped).
-/
import proofs.«110786_j25786983646071_1_alg».proof.Defs
import proofs.«110786_j25786983646071_1_alg».proof.Proof.Gen.Kernel
import proofs.«110786_j25786983646071_1_alg».proof.Proof.Gen.Kernel.Skeleton
import proofs.«110786_j25786983646071_1_alg».proof.Proof.Gen.Kernel.Launch
import proofs.«110786_j25786983646071_1_alg».proof.Proof.Gen.Kernel.Points
import proofs.«110786_j25786983646071_1_alg».proof.Proof.Gen.Kernel.Frame
import proofs.«110786_j25786983646071_1_alg».proof.Proof.Gen.KernelIdeal
import proofs.«110786_j25786983646071_1_alg».proof.Proof.Gen.KernelIdeal.Skeleton
import proofs.«110786_j25786983646071_1_alg».proof.Proof.Gen.KernelIdeal.Launch
import proofs.«110786_j25786983646071_1_alg».proof.Proof.Gen.KernelIdeal.Points
import proofs.«110786_j25786983646071_1_alg».proof.Proof.Gen.KernelIdeal.Frame
import proofs.«110786_j25786983646071_1_alg».proof.Proof.Gen.ReferenceIdeal
import proofs.«110786_j25786983646071_1_alg».proof.Proof.Gen.Pre_finite_inputs
import proofs.«110786_j25786983646071_1_alg».proof.Proof.Gen.KernelIdeal.Value
import proofs.«110786_j25786983646071_1_alg».proof.Proof.Gen.ReferenceIdeal.Run
import proofs.«110786_j25786983646071_1_alg».proof.Proof.Gen.ReferenceIdeal.Read
import proofs.«110786_j25786983646071_1_alg».proof.Proof.Heads
import proofs.«110786_j25786983646071_1_alg».proof.Proof.RefHeads
import proofs.«110786_j25786983646071_1_alg».proof.Proof.KernelBlock
import proofs.«110786_j25786983646071_1_alg».proof.Proof.KernelHeads
import Idealize.ShloMosaic.Adequacy
import Idealize.ShloMosaic.Init

noncomputable section

namespace Cert.Proof

open Idealize.ShloMosaic Idealize.ShloMosaic.TcCoe Idealize.SL.Sem

/-- The kernel program as printed runs, faults nowhere and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is host operations only: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the three arguments both programs end with the specification's two heads of those
    arguments: the kernel by its 32 row blocks, the reference stage by stage. -/
theorem algebraic : Cert.algebraic_KernelIdeal_ReferenceIdeal := by
  intro m ρ m' ρ' _ hagree
  refine ⟨_, _, Cert.KernelIdeal.Heads.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v5_eq, Cert.ReferenceIdeal.RefHeads.first_is_head0, (hagree c).1, (hagree c).2.1, (hagree c).2.2]
  · rw [Cert.ReferenceIdeal.Read.val_main_v7_eq, Cert.ReferenceIdeal.RefHeads.second_is_head1, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
